-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128 : S_.BroadcastsInDim S128 (![] : Fin 0 → Fin S128.rank)
  reducesTo_S128_S_d0 : S128.ReducesTo [0] S_
  bcast_S_S524288 : S_.BroadcastsInDim S524288 (![] : Fin 0 → Fin S524288.rank)
  reducesTo_S524288_S_d0 : S524288.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S524288x128 .f32) (main_arg1 : IVec S524288 32) (main_arg2 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg1 main_v9
  let main_c_3 : IVec S_ 1 := constantI S_ 1 1#1
  let main_v11 : IVec S_ 1 := (fun x v => Host.reduce IntOp.andi x v reducesTo_S524288_S_d0 h_S_) main_v10 main_c_3
  let main_v12 : IVec S_ 1 := andi main_v8 main_v11
  let main_c_4 : IVec S_ 32 := constantI S_ 32 128#32
  let main_v13 : IVec S524288 32 := broadcastInDim S524288 ![] bcast_S_S524288 main_c_4
  let main_v14 : IVec S524288 1 := cmpi .slt main_arg1 main_v13
  let main_c_5 : IVec S_ 1 := constantI S_ 1 1#1
  let main_v15 : IVec S_ 1 := (fun x v => Host.reduce IntOp.andi x v reducesTo_S524288_S_d0 h_S_) main_v14 main_c_5
  fn_part1 (F := F) main_v12 main_v15
-- ==== Kernel.lean ====
abbrev S524288x128 : Shape := ⟨2, ![524288, 128]⟩
abbrev S524288 : Shape := ⟨1, ![524288]⟩
abbrev S128 : Shape := ⟨1, ![128]⟩
abbrev S524288x1 : Shape := ⟨2, ![524288, 1]⟩
abbrev S1x128 : Shape := ⟨2, ![1, 128]⟩
abbrev S16x128 : Shape := ⟨2, ![16, 128]⟩
abbrev S8192x128 : Shape := ⟨2, ![8192, 128]⟩
abbrev S8192x1 : Shape := ⟨2, ![8192, 1]⟩
abbrev S8x128 : Shape := ⟨2, ![8, 128]⟩
abbrev S1x1 : Shape := ⟨2, ![1, 1]⟩
abbrev S8192 : Shape := ⟨1, ![8192]⟩
abbrev S1 : Shape := ⟨1, ![1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S128, .f32⟩
  | .hbm, ⟨3, _⟩ => ⟨S524288x1, .i32⟩
  | .hbm, ⟨4, _⟩ => ⟨S1x128, .f32⟩
  | .hbm, ⟨5, _⟩ => ⟨S16x128, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x1, .i32⟩
  | .local _ .vmem, ⟨3, _⟩ => ⟨S8192x1, .i32⟩
  | .local _ .vmem, ⟨4, _⟩ => ⟨S1x128, .f32⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S524288_S524288x1 : S524288.ShapeCasts S524288x1
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S8192x128_d1_w32 : S8192x128.Iotas .tc 32 [1]
  broadcasts_S8192x1_S8192x128 : S8192x1.Broadcasts S8192x128
  reduces_S8192x128_S8192 : S8192x128.Reduces [1] S8192
  shapeCasts_S8192_S8192x1 : S8192.ShapeCasts S8192x1
  broadcasts_S1x128_S8192x128 : S1x128.Broadcasts S8192x128
  reduces_S8192x1_S1 : S8192x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S524288x1.size a
  hwx0_1 : ∀ i : grid0.Coords, EltTy.bits .i32 = 32 ∨ (Rect.block (s := S524288x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x128 : Shape := ⟨2, ![524288, 128]⟩
abbrev S524288 : Shape := ⟨1, ![524288]⟩
abbrev S128 : Shape := ⟨1, ![128]⟩
abbrev S_ : Shape := ⟨0, ![]⟩
abbrev S1x128 : Shape := ⟨2, ![1, 128]⟩
abbrev S524288x1 : Shape := ⟨2, ![524288, 1]⟩
abbrev S524288x1x1 : Shape := ⟨3, ![524288, 1, 1]⟩
abbrev S1 : Shape := ⟨1, ![1]⟩
abbrev S1x1x1 : Shape := ⟨3, ![1, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S128, .f32⟩
  | .hbm, ⟨3, _⟩ => ⟨S_, .f32⟩
  | .hbm, ⟨4, _⟩ => ⟨S_, .f32⟩
  | .hbm, ⟨5, _⟩ => ⟨S524288x128, .f32⟩
  | .hbm, ⟨6, _⟩ => ⟨S524288x128, .f32⟩
  | .hbm, ⟨7, _⟩ => ⟨S524288x128, .f32⟩
  | .hbm, ⟨8, _⟩ => ⟨S524288x128, .f32⟩
  | .hbm, ⟨9, _⟩ => ⟨S1x128, .f32⟩
  | .hbm, ⟨10, _⟩ => ⟨S524288x128, .f32⟩
  | .hbm, ⟨11, _⟩ => ⟨S524288x128, .f32⟩
  | .hbm, ⟨12, _⟩ => ⟨S524288x1, .i32⟩
  | .hbm, ⟨13, _⟩ => ⟨S_, .i32⟩
  | .hbm, ⟨14, _⟩ => ⟨S524288x1, .i32⟩
  | .hbm, ⟨15, _⟩ => ⟨S524288x1, .i1⟩
  | .hbm, ⟨16, _⟩ => ⟨S_, .i32⟩
  | .hbm, ⟨17, _⟩ => ⟨S524288x1, .i32⟩
  | .hbm, ⟨18, _⟩ => ⟨S524288x1, .i32⟩
  | .hbm, ⟨19, _⟩ => ⟨S524288x1, .i32⟩
  | .hbm, ⟨20, _⟩ => ⟨S524288x1x1, .i32⟩
  | .hbm, ⟨21, _⟩ => ⟨S1, .i32⟩
  | .hbm, ⟨22, _⟩ => ⟨S_, .i32⟩
  | .hbm, ⟨23, _⟩ => ⟨S524288x1x1, .i32⟩
  | .hbm, ⟨24, _⟩ => ⟨S524288x1x1, .i1⟩
  | .hbm, ⟨25, _⟩ => ⟨S1x1x1, .i32⟩
  | .hbm, ⟨26, _⟩ => ⟨S524288x1x1, .i32⟩
  | .hbm, ⟨27, _⟩ => ⟨S524288x1x1, .i1⟩
  | .hbm, ⟨28, _⟩ => ⟨S524288x1x1, .i1⟩
  | .hbm, ⟨29, _⟩ => ⟨S_, .i1⟩
  | .hbm, ⟨30, _⟩ => ⟨S524288x1, .i1⟩
  | .hbm, ⟨31, _⟩ => ⟨S524288x1, .f32⟩
  | .hbm, ⟨32, _⟩ => ⟨S_, .f32⟩
  | .hbm, ⟨33, _⟩ => ⟨S524288x1, .f32⟩
  | .hbm, ⟨34, _⟩ => ⟨S524288x1, .f32⟩
  | .hbm, ⟨35, _⟩ => ⟨S524288, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v7 : Ref sig .tc := ⟨.hbm, 34, rfl⟩
abbrev main_v8 : Ref sig .tc := ⟨.hbm, 35, rfl⟩
abbrev main_cst_0 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩

abbrev nD : Nat := 1
abbrev τ : Topo := Topo.v7x

variable {F : FTy → Type} [FloatOps F]

class Facts₀ : Prop where
  bcast_S_S524288x128 : S_.BroadcastsInDim S524288x128 (![] : Fin 0 → Fin S524288x128.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S524288_S524288x1_0 : S524288.BroadcastsInDim S524288x1 (![0] : Fin 1 → Fin S524288x1.rank)
  bcast_S_S524288x1 : S_.BroadcastsInDim S524288x1 (![] : Fin 0 → Fin S524288x1.rank)
  shapeCasts_S524288x1_S524288x1x1 : S524288x1.ShapeCasts S524288x1x1
  bcast_S_S524288x1x1 : S_.BroadcastsInDim S524288x1x1 (![] : Fin 0 → Fin S524288x1x1.rank)
  bcast_S1_S1x1x1_2 : S1.BroadcastsInDim S1x1x1 (![2] : Fin 1 → Fin S1x1x1.rank)
  bcast_S1x1x1_S524288x1x1_0_1_2 : S1x1x1.BroadcastsInDim S524288x1x1 (![0, 1, 2] : Fin 3 → Fin S524288x1x1.rank)
  reducesTo_S524288x1x1_S524288x1_d2 : S524288x1x1.ReducesTo [2] S524288x1
  h_S_ : 0 < S_.numel
  shapeCasts_S524288x1_S524288 : S524288x1.ShapeCasts S524288
  reducesTo_S524288_S_d0 : S524288.ReducesTo [0] S_
  gather_S524288x128_S524288x1x1_S524288x1_n_1_0_0_1_2_11_wf : GatherDims.WF S524288x128 S524288x1x1 S524288x1 [] [1] [0] [1] [0] 2 ![1, 1]

variable [Facts₀]

def gather_S524288x128_S524288x1x1_S524288x1_n_1_0_0_1_2_11 : GatherDims S524288x128 S524288x1x1 S524288x1 where
  offsetDims := []
  collapsedSliceDims := [1]
  operandBatchingDims := [0]
  startIndicesBatchingDims := [0]
  startIndexMap := [1]
  indexVectorDim := 2
  sliceSizes := ![1, 1]
  wf := gather_S524288x128_S524288x1x1_S524288x1_n_1_0_0_1_2_11_wf

class Facts : Prop extends Facts₀ where

variable [Facts]
-- ==== Proof.LossSpec.lean ====
/-
  The weighted log-loss both programs compute, as one function of the three argument arrays, over the extended reals.

  For a row `i` whose label `t i` names a column, the row's loss is `(0 - log (max (x i (t i)) clip)) * w (t i)`, and the
  result is the mean of the rows' losses: their sum times `1/524288`. Nothing here needs the entries to be finite: the
  only laws used downstream are that addition of extended reals is commutative and associative and that `0` is its unit.

  Also here: the two f32 words that carry the mean's divisor (the kernel multiplies by `2⁻¹⁹`, the reference divides by
  `2¹⁹`), a sum over a range of `n` blocks of `K` consecutive naturals regrouped block by block, and the sum of a row whose
  entries are masked to the one column a label names.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The shapes of the three arguments: the probabilities, the labels, the class weights. -/
abbrev SX : Shape := ⟨2, ![524288, 128]⟩
abbrev ST : Shape := ⟨1, ![524288]⟩
abbrev SW : Shape := ⟨1, ![128]⟩

/-- The clip threshold: the value of the f32 word nearest `1e-10`, the same word in both programs. -/
abbrev clipv : EReal := Ideal.ofBits .f32 0x2EDBE6FF#32

/-- One selected entry's contribution: minus the logarithm of the entry clipped from below, times the class weight. -/
def term (xv wv : EReal) : EReal := (0 - Ideal.log (max xv clipv)) * wv

/-- The column a row's label names (a label in `[0, 128)` is its own residue). -/
def col (tg : ST.Idx → BitVec 32) (i : Fin 524288) : Fin 128 :=
  ⟨(tg (ix1 i)).toNat % 128, Nat.mod_lt _ (by norm_num)⟩

theorem col_val (tg : ST.Idx → BitVec 32) (i : Fin 524288) (h : (tg (ix1 i)).toNat < 128) :
    (col tg i).val = (tg (ix1 i)).toNat := Nat.mod_eq_of_lt h

/-- Row `i`'s loss (zero past the last row, so that sums over ranges of naturals need no bound). -/
def rowLoss (x : SX.Idx → EReal) (tg : ST.Idx → BitVec 32) (w : SW.Idx → EReal) (i : ℕ) : EReal :=
  if h : i < 524288 then term (x (ix2 ⟨i, h⟩ (col tg ⟨i, h⟩))) (w (ix1 (col tg ⟨i, h⟩))) else 0

theorem rowLoss_of_lt (x : SX.Idx → EReal) (tg : ST.Idx → BitVec 32) (w : SW.Idx → EReal) (i : ℕ) (h : i < 524288) :
    rowLoss x tg w i = term (x (ix2 ⟨i, h⟩ (col tg ⟨i, h⟩))) (w (ix1 (col tg ⟨i, h⟩))) := dif_pos h

/-- The mean of the rows' losses. -/
def meanLoss (x : SX.Idx → EReal) (tg : ST.Idx → BitVec 32) (w : SW.Idx → EReal) : EReal :=
  (∑ i ∈ Finset.range 524288, rowLoss x tg w i) * ((1 / 524288 : ℝ) : EReal)

/-! ## The two words of the divisor -/

/-- The kernel's factor: the f32 word `0x36000000` is exactly `2⁻¹⁹ = 1/524288`. -/
theorem ofBits_inv : Ideal.ofBits .f32 0x36000000#32 = ((1 / 524288 : ℝ) : EReal) := by
  simp [Ideal.ofBits, Ideal.ieee, -EReal.coe_mul]; norm_num

/-- The reference's divisor: the f32 word `0x49000000` is exactly `2¹⁹ = 524288`. -/
theorem ofBits_n : Ideal.ofBits .f32 0x49000000#32 = ((524288 : ℝ) : EReal) := by
  simp [Ideal.ofBits, Ideal.ieee, -EReal.coe_mul]; norm_num

/-- Dividing by `2¹⁹` is multiplying by `2⁻¹⁹`, on every extended real. -/
theorem div_n (s : EReal) : Ideal.div s (Ideal.ofBits .f32 0x49000000#32) = s * ((1 / 524288 : ℝ) : EReal) := by
  rw [ofBits_n, Ideal.div_coe (by norm_num : (524288 : ℝ) ≠ 0)]

/-! ## Sums -/

/-- A sum over `n` blocks of `K` consecutive naturals, block by block. -/
theorem sum_range_blocks {M : Type*} [AddCommMonoid M] (f : ℕ → M) (K : ℕ) :
    ∀ n : ℕ, ∑ i ∈ Finset.range (n * K), f i = ∑ s ∈ Finset.range n, ∑ r ∈ Finset.range K, f (K * s + r)
  | 0 => by simp
  | n + 1 => by
    rw [Nat.succ_mul, Finset.sum_range_add, sum_range_blocks f K n, Finset.sum_range_succ, Nat.mul_comm n K]

/-- A row masked to the one column `q`: its sum is the entry there (adding zeros changes nothing, at infinities too). -/
theorem sum_masked {n : ℕ} (q : Fin n) (f : Fin n → EReal) (p : Fin n → Prop) [DecidablePred p] (hp : ∀ k, p k ↔ k = q) :
    ∑ k : Fin n, (if p k then f k else 0) = f q := by
  rw [Finset.sum_eq_single q]
  · rw [if_pos ((hp q).2 rfl)]
  · intro k _ hk; rw [if_neg (fun h => hk ((hp k).1 h))]
  · intro h; exact absurd (Finset.mem_univ q) h

end Cert.LossSpec

end
-- ==== Proof.RefLoss.lean ====
/-
  The reference's value: the last stage of the jnp reference (clip, minus logarithm, times the class weight, take along
  the class axis by the label, mean) is the specification's mean loss, over the extended reals.

  The labels lie in [0, 128). So the index normalisation "t < 0 ? t + 128 : t" leaves every label alone, the bounds test
  "0 ≤ t and t ≤ 127" holds at every row (its reduction by "and" over the unit axis is therefore 1 everywhere, and the
  select keeps the gathered value, never the fill word), and the gather's clamp of the start index into [0, 127] is the
  identity. Row r of the gather then reads the product array at (r, t r), which is
  "-(log (max clip (x r (t r)))) * w (t r)": the specification's term, since 0 - a = -a and max is commutative. The sum
  over all indices of the loss vector is the sum over the naturals below 524288 of the rows' losses, the initial word
  is zero, and dividing by the word 524288 is multiplying by 1/524288.

  In order: the gather read at a row; a reduction by "and" of an all-ones array; three facts on 32-bit words; the
  reference's stages at a row; the mean.
-/
import proofs.«408979_j42958262894786_2_alg».proof.Proof.RefRead
import proofs.«408979_j42958262894786_2_alg».proof.Proof.LossSpec
import Idealize.ShloMosaic.Lib.ValueIdx
import Idealize.ShloMosaic.Lib.ValueIdxRank1
import Idealize.ShloMosaic.Lib.StableHlo.Predicate
import Idealize.ShloMosaic.PureOps.Reduce
import Idealize.ShloMosaic.PureOps.Ideal.Laws

noncomputable section

namespace Cert.RefLoss

open Idealize.ShloMosaic Idealize.ShloMosaic.ValueIdx Cert.ReferenceIdeal Cert.ReferenceIdeal.Gen

/-! ## The gather, read at a row

The operand is [524288, 128], the start indices [524288, 1, 1], the result [524288, 1]. Axis 0 of the operand is a
batching axis paired with axis 0 of the start indices; axis 1 is the collapsed axis that the start index names. Result
index (r, 0) therefore reads the operand at row r and at the column idx[r, 0, 0], read signed and clamped into
[0, 127]. -/

/-- The gather's dimension numbers. -/
abbrev gd : GatherDims S524288x128 S524288x1x1 S524288x1 := gather_S524288x128_S524288x1x1_S524288x1_n_1_0_0_1_2_11

/-- On the batching axis the operand index is the result's row. -/
theorem gd_axis0 {w : Nat} (y : S524288x1.Idx) (idx : IVec S524288x1x1 w) :
    gd.start y idx 0 + gd.batchCoord y 0 + gd.offCoord y 0 = (y 0).val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin 2) ∈ gd.operandBatchingDims from List.mem_singleton.mpr rfl)]
  rfl

/-- On the indexed axis the operand index is the start index of the result's row, read signed and clamped. -/
theorem gd_axis1 {w : Nat} (y : S524288x1.Idx) (idx : IVec S524288x1x1 w) :
    gd.start y idx 1 + gd.batchCoord y 1 + gd.offCoord y 1
      = min (idx (ix3 (y 0) (y 1) (0 : Fin 1))).toInt.toNat 127 := by
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gd.startIndexMap from List.mem_singleton.mpr rfl)]
  have hsi : gd.siIdx y ⟨List.idxOf (1 : Fin 2) gd.startIndexMap,
      List.idxOf_lt_length_iff.2 (List.mem_singleton.mpr rfl)⟩ = ix3 (y 0) (y 1) (0 : Fin 1) := by
    funext b; refine Fin.ext ?_
    match b with
    | ⟨0, _⟩ => rfl
    | ⟨1, _⟩ => rfl
    | ⟨2, _⟩ => rfl
  rw [hsi]
  rfl

/-- The gather at row r: the operand at (r, c), with c the row's start index read signed and clamped into [0, 127]. -/
theorem gather_row {α : Type} (X : S524288x128.Idx → α) (idx : IVec S524288x1x1 32) (r : Fin 524288) :
    Host.gather gd X idx (ix2 r (0 : Fin 1))
      = X (ix2 r ⟨min (idx (ix3 r (0 : Fin 1) (0 : Fin 1))).toInt.toNat 127, by omega⟩) := by
  unfold Host.gather
  congr 1
  funext a
  refine Fin.ext ?_
  match a with
  | ⟨0, _⟩ => exact gd_axis0 (ix2 r (0 : Fin 1)) idx
  | ⟨1, _⟩ => exact gd_axis1 (ix2 r (0 : Fin 1)) idx

/-- The same with the column named: if the row's start index, read signed and clamped, is c, the gather reads (r, c). -/
theorem gather_row_at {α : Type} (X : S524288x128.Idx → α) (idx : IVec S524288x1x1 32) (r : Fin 524288) (c : Fin 128)
    (hc : min (idx (ix3 r (0 : Fin 1) (0 : Fin 1))).toInt.toNat 127 = c.val) :
    Host.gather gd X idx (ix2 r (0 : Fin 1)) = X (ix2 r c) := by
  rw [gather_row]
  congr 2
  exact Fin.ext hc

/-! ## The bounds mask, reduced over its unit axis -/

/-- A left fold by "and" from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-- A reduce by "and" from the constant 1 of an array whose every element is 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x _ (fun n _ => hx n)

/-! ## Words: a label in [0, 128) passes the index normalisation, the bounds test and the clamp unchanged -/

open Idealize.ShloMosaic.StableHlo.Predicate in
/-- A non-negative label is not shifted by the extent: "t < 0 ? t + 128 : t" is t. -/
theorem norm_label (t : BitVec 32) (ht : t.toNat < 128) :
    Scalar.select (IntOp.cmpi .slt t 0#32) (IntOp.addi t 128#32) t = t := by
  have h : ¬ IntOp.cmpi .slt t 0#32 = 1#1 := by
    rw [slt_iff_toNat (by omega) (by decide)]; exact Nat.not_lt_zero _
  rw [eq_zero_of_ne_one h, select_zero]

open Idealize.ShloMosaic.StableHlo.Predicate in
/-- A label in [0, 128) passes the bounds test "0 ≤ t and t ≤ 127". -/
theorem inb_label (t : BitVec 32) (ht : t.toNat < 128) :
    IntOp.andi (IntOp.cmpi .sge t 0#32) (IntOp.cmpi .sle t 127#32) = 1#1 := by
  have h0 : IntOp.cmpi .sge t 0#32 = 1#1 := (sge_iff_toNat (by omega) (by decide)).2 (Nat.zero_le _)
  have h1 : IntOp.cmpi .sle t 127#32 = 1#1 :=
    (sle_iff_toNat (by omega) (by decide)).2 (by show t.toNat ≤ 127; omega)
  rw [h0, h1]; rfl

open Idealize.ShloMosaic.StableHlo.Predicate in
/-- A label in [0, 128), read signed and clamped into [0, 127], is itself. -/
theorem clamp_label (t : BitVec 32) (ht : t.toNat < 128) : min t.toInt.toNat 127 = t.toNat := by
  rw [toInt_eq_toNat_of_lt (by omega), Int.toNat_natCast]; omega

/-! ## The reference's stages at a row -/

section Row

open Cert.ReferenceIdeal.ReadP Cert.LossSpec

variable (x : (⟨S524288x128, .f32⟩ : BufTy).Contents (Elt Ideal)) (tg : (⟨S524288, .i32⟩ : BufTy).Contents (Elt Ideal))
  (w : (⟨S128, .f32⟩ : BufTy).Contents (Elt Ideal))

/-- The labels as a column [524288, 1]: row r reads label r. -/
theorem idx_v6 (r : Fin 524288) : idx_main_v6 (ix2 r (0 : Fin 1)) = ix1 r := by
  funext a; match a with | ⟨0, _⟩ => rfl

/-- The column recast as [524288, 1, 1]: entry (r, 0, 0) is the column's row r. -/
theorem idx_c5 (r : Fin 524288) : idx_main_call1_v5 (ix3 r (0 : Fin 1) (0 : Fin 1)) = ix2 r (0 : Fin 1) := by
  funext a; refine Fin.ext ?_
  match a with
  | ⟨0, _⟩ => show ((r.val * 1 + 0) * 1 + 0) / 1 = r.val; omega
  | ⟨1, _⟩ => rfl

/-- The gathered column recast as a vector: entry r is the column's row r. -/
theorem idx_v8 (r : Fin 524288) : idx_main_v8 (ix1 r) = ix2 r (0 : Fin 1) := by
  funext a; refine Fin.ext ?_
  match a with
  | ⟨0, _⟩ => exact Nat.div_one _
  | ⟨1, _⟩ => rfl

/-- The weights broadcast over the rows: entry (r, c) reads weight c. -/
theorem idx_v4v3 (r : Fin 524288) (c : Fin 128) : idx_main_v3 (idx_main_v4 (ix2 r c)) = ix1 c := by
  funext a; match a with | ⟨0, _⟩ => rfl

/-- The start index of row r is label r: the normalisation leaves a label in [0, 128) alone. -/
theorem start_eq (hin : ∀ i : Fin 524288, (tg (ix1 i)).toNat < 128) (r : Fin 524288) :
    val_main_call1_v5 (F := Ideal) tg (ix3 r (0 : Fin 1) (0 : Fin 1)) = tg (ix1 r) := by
  rw [val_main_call1_v5_apply, idx_c5, val_main_call1_v4_apply, val_main_call1_v1_apply, val_main_call1_v3_apply,
    val_main_v6_apply, idx_v6, val_main_call1_v0_apply, val_main_call1_c_apply, val_main_call1_v2_apply,
    val_main_call1_c_0_apply]
  exact norm_label _ (hin r)

/-- The bounds mask is 1 at every row: every start index is a label in [0, 127]. -/
theorem mask_one (hin : ∀ i : Fin 524288, (tg (ix1 i)).toNat < 128) (j : S524288x1.Idx) :
    val_main_call1_v12 (F := Ideal) tg j = 1#1 := by
  unfold val_main_call1_v12
  refine reduce_andi_ones _ _ _ _ ?_ (fun _ => rfl) j
  intro k
  obtain ⟨r, b, c, rfl⟩ : ∃ (r : Fin 524288) (b c : Fin 1), k = ix3 r b c := ⟨k 0, k 1, k 2, eq_ix3 k⟩
  obtain rfl : b = 0 := Subsingleton.elim _ _
  obtain rfl : c = 0 := Subsingleton.elim _ _
  rw [val_main_call1_v11_apply, val_main_call1_v7_apply, val_main_call1_v10_apply, start_eq tg hin r,
    val_main_call1_v6_apply, val_main_call1_c_2_apply, val_main_call1_v9_apply, val_main_call1_v8_apply,
    val_main_call1_c_1_apply]
  exact inb_label _ (hin r)

/-- The product array at (r, c): minus the logarithm of the clipped entry, times weight c. -/
theorem prod_at (r : Fin 524288) (c : Fin 128) :
    val_main_v5 (F := Ideal) x w (ix2 r c) = term (x (ix2 r c)) (w (ix1 c)) := by
  rw [val_main_v5_apply, val_main_v2_apply, val_main_v1_apply, val_main_v0_apply, val_main_call0_v1_apply,
    val_main_call0_v0_apply, val_main_cst_apply, val_main_v4_apply, val_main_v3_apply, idx_v4v3]
  simp only [Ideal.mulf_def, Ideal.hostNegf_def, Ideal.negf_def, Ideal.hostUnary_log_def, Ideal.maximumf_def,
    Ideal.ofBits_def]
  unfold term
  rw [zero_sub, max_comm]

/-- Row r of the reference's loss vector is the specification's row loss. -/
theorem row_eq (hin : ∀ i : Fin 524288, (tg (ix1 i)).toNat < 128) (r : Fin 524288) :
    val_main_v8 (F := Ideal) x tg w (ix1 r) = rowLoss x tg w r.val := by
  rw [val_main_v8_apply, idx_v8, val_main_v7_apply, mask_one tg hin, select_one]
  unfold val_main_call1_v13
  rw [gather_row_at _ _ r (col tg r)
      (by rw [start_eq tg hin r, clamp_label _ (hin r), col_val tg r (hin r)]),
    prod_at, rowLoss_of_lt x tg w r.val r.isLt]

end Row

/-! ## The mean -/

open Idealize.ShloMosaic Idealize.ShloMosaic.ValueIdx Cert.ReferenceIdeal in
/-- The reference's result is the specification's mean loss: the sum over all rows of the loss vector, from the zero
    word, divided by the word 524288. -/
theorem result_eq (x : (⟨S524288x128, .f32⟩ : BufTy).Contents (Elt Ideal)) (tg : (⟨S524288, .i32⟩ : BufTy).Contents (Elt Ideal)) (w : (⟨S128, .f32⟩ : BufTy).Contents (Elt Ideal))
    (hin : ∀ i : Fin 524288, (tg (ix1 i)).toNat < 128) :
    Cert.ReferenceIdeal.ReadP.val_main_v10 (F := Ideal) x tg w = fun _ => Cert.LossSpec.meanLoss x tg w := by
  funext j
  rw [Cert.ReferenceIdeal.ReadP.val_main_v10_apply, Cert.ReferenceIdeal.ReadP.val_main_v9_apply,
    Cert.ReferenceIdeal.ReadP.val_main_cst_0_apply, Cert.ReferenceIdeal.ReadP.val_main_cst_1_apply]
  simp only [Ideal.hostDivf_def, Ideal.ofBits_def]
  rw [Ideal.ofBits_zero_f32, zero_add, Cert.LossSpec.div_n]
  unfold Cert.LossSpec.meanLoss
  refine congrArg (fun s : EReal => s * ((1 / 524288 : ℝ) : EReal)) ?_
  rw [← Fin.sum_univ_eq_sum_range (fun i => Cert.LossSpec.rowLoss x tg w i) 524288]
  refine (Equiv.sum_comp (idxEquiv1 (n := 524288)).symm
    (Cert.ReferenceIdeal.ReadP.val_main_v8 (F := Ideal) x tg w)).symm.trans ?_
  exact Finset.sum_congr rfl (fun r _ => row_eq x tg w hin r)

end Cert.RefLoss

end
-- ==== Proof.PreRange.lean ====
/-
  The precondition's label range, read back. The printed predicate is a conjunction of four reductions by `and`, each over
  a whole array of comparison bits, and the claim's hypothesis says the conjunction is 1. Its last two conjuncts compare
  every label word with 0 (≥, signed) and with 128 (<, signed). A reduction by `and` that comes out 1 met only 1s, so both
  comparisons hold at every label. A 32-bit word that is nonnegative when read signed has its top bit clear, so it reads
  the same signed and unsigned; being below 128 signed is then being below 128 unsigned. Hence every label, read as a
  natural number, is below 128: it names one of the 128 classes.
-/
import proofs.«408979_j42958262894786_2_alg».proof.Pre_finite_inputs
import Idealize.ShloMosaic.Lib.ReduceAll
import Idealize.ShloMosaic.Lib.StableHlo.Predicate
import Idealize.ShloMosaic.Lib.ValueIdx

namespace Cert.PreRange

open Idealize.ShloMosaic

/-- A word in [0, 128) read signed is below 128 read unsigned: nonnegative signed means the top bit is clear
    (2·toNat < 2³²), and such a word has the same signed and unsigned value. -/
theorem word_lt {a : BitVec 32} (h0 : IntOp.cmpi .sge a 0#32 = 1#1) (h1 : IntOp.cmpi .slt a 128#32 = 1#1) :
    a.toNat < 128 := by
  rw [IntOp.cmpi_sge, show (0#32 : BitVec 32).toInt = 0 from by decide] at h0
  rw [IntOp.cmpi_slt, show (128#32 : BitVec 32).toInt = 128 from by decide] at h1
  have hpos : 2 * a.toNat < 2 ^ 32 := BitVec.toInt_pos_iff.1 h0
  have hs : a.toInt = a.toNat := StableHlo.Predicate.toInt_eq_toNat_of_lt (by omega)
  omega

/- Every label is below 128. The predicate's value at its one index is ((c₁ ∧ c₂) ∧ c₃) ∧ c₄ with c₃ = "all labels ≥ 0" and
   c₄ = "all labels < 128"; each cᵢ is a reduction by `and` into the scalar shape, whose index set has one element, so each
   of c₃ = 1 and c₄ = 1 gives its comparison at every label. The compared constant is a scalar broadcast along the labels'
   axis, which reads as that scalar at every position. -/
open Idealize.ShloMosaic Idealize.ShloMosaic.ValueIdx Cert.Pre_finite_inputs in
theorem target_lt {F : FTy → Type} [FloatOps F] [Cert.Pre_finite_inputs.Facts]
    (x : FVec F S524288x128 .f32) (tg : IVec S524288 32) (w : FVec F S128 .f32)
    (h : Cert.Pre_finite_inputs.fn (F := F) x tg w = fun _ => 1#1) :
    ∀ i : Fin 524288, (tg (ix1 i)).toNat < 128 := by
  intro i
  -- the scalar shape has exactly one index, the empty one
  haveI : Subsingleton S_.Idx := ⟨fun a b => funext fun d => d.elim0⟩
  -- the predicate's value at that index is 1
  have h0 := congrFun h ix0
  dsimp only [Cert.Pre_finite_inputs.fn, Cert.Pre_finite_inputs.fn_part1] at h0
  -- split ((c₁ ∧ c₂) ∧ c₃) ∧ c₄ = 1 and keep c₃ and c₄
  obtain ⟨h12, h15⟩ := IntOp.andi_eq_one.1 h0
  obtain ⟨_, h11⟩ := IntOp.andi_eq_one.1 h12
  -- each reduction by `and` that is 1 had a 1 at label i
  have e0 := Host.reduce_andi_all _ _ _ _ _ h11 (ix1 i)
  have e1 := Host.reduce_andi_all _ _ _ _ _ h15 (ix1 i)
  -- at label i the two bits are the word comparisons 0 ≤ tg i and tg i < 128, both signed
  have g0 : IntOp.cmpi .sge (tg (ix1 i)) 0#32 = 1#1 := e0
  have g1 : IntOp.cmpi .slt (tg (ix1 i)) 128#32 = 1#1 := e1
  exact word_lt g0 g1

end Cert.PreRange
-- ==== Proof.KernelPieces.lean ====
/-
  What one run of the kernel body leaves behind, as values. The body keeps a running total in a one-entry scratch:
  at the first step of a core's row blocks it stores zero there and then adds the block's loss to what it reads back; at
  every later step it adds the block's loss to what the step before left; at the core's last step it also fills the
  core's output block with the total. Read through the stores the run found:

    first step:   the scratch ends at   blockLoss(blocks) added to the zero entry;
    later steps:  the scratch ends at   blockLoss(blocks) added to the previous total;
    last step:    the same, and the output block ends at the broadcast of that new total.

  `k0_pay3` is the body's arithmetic for the scratch (previous total plus the block's loss), `k0_pay2` the zero entry,
  `k0_pay1` the broadcast to the output block. These equations hold at every float family.
-/
import proofs.«408979_j42958262894786_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A later step (neither first nor last): the scratch, holding `xs0`, ends at the body's sum over it. -/
theorem scratch_B (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S1x128 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S8192x128 .f32) (x1 : Vec F S8192x1 .i32) (x2 : Vec F S1x128 .f32) (xs0 : Vec F S1x1 .f32) :
    sout0_B_0 c i arg2 harg2 arg3 harg3 arg4 harg4 arg5 harg5 arg6 harg6 hc0 hc1 x0 x1 x2 xs0 = k0_pay3 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S8192x128) hz,
    View.ld_unit_zero (S := S8192x1) hz, View.ld_unit_zero (S := S1x128) hz, View.ld_unit_zero (S := S1x1) hz]

/-- The last step: the scratch likewise. -/
theorem scratch_C (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S1x128 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S8192x128 .f32) (x1 : Vec F S8192x1 .i32) (x2 : Vec F S1x128 .f32) (xs0 : Vec F S1x1 .f32) :
    sout0_C_0 c i arg2 harg2 arg3 harg3 arg4 harg4 arg5 harg5 arg6 harg6 hc0 hc1 x0 x1 x2 xs0 = k0_pay3 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S8192x128) hz,
    View.ld_unit_zero (S := S8192x1) hz, View.ld_unit_zero (S := S1x128) hz, View.ld_unit_zero (S := S1x1) hz]

/-- The last step: the output block ends at the broadcast of the new total (the store's value is read back from the
    scratch after the accumulating store). -/
theorem out_C (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S1x128 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S8192x128 .f32) (x1 : Vec F S8192x1 .i32) (x2 : Vec F S1x128 .f32) (xs0 : Vec F S1x1 .f32) :
    out0_C_3 c i arg2 harg2 arg3 harg3 arg4 harg4 arg5 harg5 arg6 harg6 hc0 hc1 x0 x1 x2 xs0 = k0_pay1 (k0_pay3 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S8192x128) hz,
    View.ld_unit_zero (S := S8192x1) hz, View.ld_unit_zero (S := S1x128) hz, View.ld_unit_zero (S := S1x1) hz,
    View.readCov_unit_zero (S := S1x1) _ hz]

/-- The first step: the zero entry is stored, read back, and the block's loss added to it. -/
theorem scratch_A (c : Dev nD) (i : grid0.Coords) (arg2 : Memref sig .tc .vmem S8192x128 .f32) (harg2 : arg2.IsWhole) (arg3 : Memref sig .tc .vmem S8192x1 .i32) (harg3 : arg3.IsWhole) (arg4 : Memref sig .tc .vmem S1x128 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S8192x128 .f32) (x1 : Vec F S8192x1 .i32) (x2 : Vec F S1x128 .f32) :
    sout0_A_0 c i arg2 harg2 arg3 harg3 arg4 harg4 arg5 harg5 arg6 harg6 hc0 hc1 x0 x1 x2 = k0_pay3 x0 x1 x2 (k0_pay2 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, View.ld_unit_zero (S := S8192x128) hz,
    View.ld_unit_zero (S := S8192x1) hz, View.ld_unit_zero (S := S1x128) hz, View.ld_unit_zero (S := S1x1) hz]

end Cert.KernelIdeal.Pieces

end
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.LibKeepdims.lean ====
/- Readings of a sum that keeps its axis (`sum(…, keepdims=True)`) at an index written by coordinates, at any extents:
   a vector [a] viewed as a one-column matrix [a, 1]; the index a sum along the second axis of an [a, b] matrix visits
   (row r, each column k); the index a sum along the first axis of a matrix visits (each row k, column u); and, from these,
   the sum along the lanes of an [a, b] float matrix kept as a column, and the sum down an [a, 1] column kept as [1, 1]. -/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

/-- A vector [a] cast to a one-column matrix [a, 1] reads, at (r, u), the vector at r. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- Summing an [a, b] matrix along its second axis: the index visited for row r at step k is (r, k). -/
theorem lift_lane {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- Summing an [a, b] matrix along its first axis: the index visited for column u at step k is (k, u). -/
theorem lift_rows {a b : ℕ} (h : (⟨2, ![a, b]⟩ : Shape).Reduces [0] ⟨1, ![b]⟩) (u : Fin b) (k : Fin a) :
    h.lift (ix1 u) k = ix2 k u := by
  funext c
  match c with
  | ⟨0, _⟩ => exact Fin.ext rfl
  | ⟨1, _⟩ => exact Fin.ext rfl

/-- The lane sum of an [a, b] float matrix, kept as a column: at (r, u) it is the sum of row r's entries. -/
theorem laneSum_keep_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ src acc h hφ hacc) hc (ix2 r u) = ∑ k : Fin b, src (ix2 r k) := by
  refine (shapeCast_a_a1_apply _ hc r u).trans ?_
  refine (Ideal.multiReduction_add_single src acc h hφ hacc (ix1 r)).trans ?_
  exact Finset.sum_congr rfl fun k _ => congrArg src (lift_lane h r k)

/-- The sum down an [a, 1] float column, kept as [1, 1]: at (p, q) it is the sum of the column's entries. -/
theorem colSum_keep_apply {φ : FTy} {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (hc : (⟨1, ![1]⟩ : Shape).ShapeCasts ⟨2, ![1, 1]⟩) (p q : Fin 1) :
    shapeCast ⟨2, ![1, 1]⟩ (multiReduction .add [0] ⟨1, ![1]⟩ src acc h hφ hacc) hc (ix2 p q) = ∑ k : Fin a, src (ix2 k (0 : Fin 1)) := by
  refine (shapeCast_a_1a_apply _ hc p q).trans ?_
  refine (Ideal.multiReduction_add_single src acc h hφ hacc (ix1 q)).trans ?_
  refine Finset.sum_congr rfl fun k _ => congrArg src ?_
  rw [lift_rows h q k]
  have : q = 0 := Subsingleton.elim _ _
  rw [this]

end Cert.LibKeepdims
-- ==== Proof.KernelPayload.lean ====
/-
  The body's arithmetic at an index, over the extended reals.

  For a block of 8192 rows `x0` with their labels `x1` (one per row) and the class weights `x2` (one row of 128), the body
  builds the mask "column c is row r's label", sums each row of `x0` and of the weights under the mask — so, for a label in
  [0, 128), it picks out `x0 r (label r)` and `x2 (label r)`, every other summand being zero —, takes
  `(0 - log (max picked clip)) * weight` per row, sums the 8192 rows, and adds that to the running total `xs`.
  So the new total is `xs + Σ_r term (x0 r (label r)) (x2 (label r))`. The zero entry the first step stores is `0`, and the
  output block the last step stores is the total at every position.
-/
import proofs.«408979_j42958262894786_2_alg».proof.Proof.Gen.KernelIdeal.Skeleton
import proofs.«408979_j42958262894786_2_alg».proof.Proof.LossSpec
import proofs.«408979_j42958262894786_2_alg».proof.Proof.LibColumns
import proofs.«408979_j42958262894786_2_alg».proof.Proof.LibKeepdims
import Idealize.ShloMosaic.Lib.StableHlo.Predicate

noncomputable section

namespace Cert.KernelIdeal.Payload

open Cert.KernelIdeal Cert.KernelIdeal.Gen
open Idealize.ShloMosaic Idealize.ShloMosaic.ValueIdx Cert.LossSpec

/-- The vector logarithm is pointwise. -/
theorem log_apply {s : Shape} {φ : FTy} (v : FVec Ideal s φ) (i : s.Idx) : log v i = Ideal.log (v i) := rfl

/-- The body's mask at (r, c): column c against row r's label. -/
theorem mask_apply (x1 : Vec Ideal S8192x1 .i32) (r : Fin 8192) (c : Fin 128) :
    cmpi .eq (iota .tc S8192x128 32 [1] iota_S8192x128_d1_w32)
      (broadcastTo S8192x128 (shapeCast S8192x1 x1 shapeCasts_S8192x1_S8192x1) broadcasts_S8192x1_S8192x128) (ix2 r c)
      = IntOp.cmpi .eq (BitVec.ofNat 32 c.val) (x1 (ix2 r (0 : Fin 1))) := by
  show IntOp.cmpi .eq (iota .tc S8192x128 32 [1] iota_S8192x128_d1_w32 (ix2 r c))
    (broadcastTo S8192x128 (shapeCast S8192x1 x1 shapeCasts_S8192x1_S8192x1) broadcasts_S8192x1_S8192x128 (ix2 r c)) = _
  rw [iota_single_apply, Cert.LibColumns.broadcastTo_a1_ab_apply, shapeCast_self]

/-- Column c's word equals a label word below 128 exactly when c is that label. -/
theorem col_eq_iff (t : BitVec 32) (ht : t.toNat < 128) (c : Fin 128) :
    IntOp.cmpi .eq (BitVec.ofNat 32 c.val) t = 1#1 ↔ c = ⟨t.toNat, ht⟩ := by
  rw [StableHlo.Predicate.cmpi_eq_iff]
  constructor
  · intro h
    apply Fin.ext
    have := congrArg BitVec.toNat h
    rw [BitVec.toNat_ofNat] at this
    have hc := c.isLt
    show c.val = t.toNat
    omega
  · intro h
    subst h
    exact BitVec.eq_of_toNat_eq (by rw [BitVec.toNat_ofNat]; show t.toNat % 2 ^ 32 = t.toNat; omega)

/-- A row summed under the mask of a label below 128 is the row's entry at the label (the other summands are zero). -/
theorem masked_row (t : BitVec 32) (ht : t.toNat < 128) (f : Fin 128 → EReal) :
    ∑ c : Fin 128, Scalar.select (IntOp.cmpi .eq (BitVec.ofNat 32 c.val) t) (f c) (Ideal.ofBits .f32 0x00000000#32) = f ⟨t.toNat, ht⟩ := by
  rw [Ideal.ofBits_zero_f32]
  exact sum_masked ⟨t.toNat, ht⟩ f (fun c => IntOp.cmpi .eq (BitVec.ofNat 32 c.val) t = 1) (col_eq_iff t ht)

/-- The zero entry the first step stores. -/
theorem pay2_apply (y : S1x1.Idx) : k0_pay2 (F := Ideal) y = 0 := by
  unfold k0_pay2
  rw [shapeCast_self]
  exact Ideal.ofBits_zero_f32

/-- The output block the last step stores: the total at every position. -/
theorem pay1_apply (v : Vec Ideal S1x1 .f32) (a : Fin 8) (b : Fin 128) : k0_pay1 (F := Ideal) v (ix2 a b) = v (ix2 (0 : Fin 1) (0 : Fin 1)) := by
  unfold k0_pay1
  rw [shapeCast_self]
  refine broadcastTo_apply v broadcasts_S1x1_S8x128 (ix2 a b) (ix2 (0 : Fin 1) (0 : Fin 1)) fun ax => ?_
  match ax with
  | ⟨0, _⟩ => rfl
  | ⟨1, _⟩ => rfl

/-- The new total: the old one plus the block's loss, row by row at the rows' labels. -/
theorem pay3_apply (x0 : Vec Ideal S8192x128 .f32) (x1 : Vec Ideal S8192x1 .i32) (x2 : Vec Ideal S1x128 .f32) (xs : Vec Ideal S1x1 .f32)
    (hin : ∀ r : Fin 8192, (x1 (ix2 r (0 : Fin 1))).toNat < 128) (p q : Fin 1) :
    k0_pay3 (F := Ideal) x0 x1 x2 xs (ix2 p q)
      = xs (ix2 p q) + ∑ r : Fin 8192, term (x0 (ix2 r ⟨(x1 (ix2 r (0 : Fin 1))).toNat, hin r⟩))
          (x2 (ix2 (0 : Fin 1) ⟨(x1 (ix2 r (0 : Fin 1))).toNat, hin r⟩)) := by
  unfold k0_pay3
  rw [shapeCast_self]
  refine (addf_apply _ _ _).trans ?_
  congr 1
  refine (Cert.LibKeepdims.colSum_keep_apply _ _ _ _ _ _ p q).trans ?_
  refine Finset.sum_congr rfl fun r _ => ?_
  unfold term
  refine (mulf_apply _ _ _).trans ?_
  congr 1
  · -- the row's factor 0 - log (max picked clip)
    refine (subf_apply _ _ _).trans ?_
    congr 1
    · exact Ideal.ofBits_zero_f32
    · refine (log_apply _ _).trans ?_
      congr 1
      refine (maximumf_apply _ _ _).trans ?_
      congr 1
      -- the row of x0 summed under the mask: its entry at the label
      refine (Cert.LibKeepdims.laneSum_keep_apply _ _ _ _ _ _ r (0 : Fin 1)).trans ?_
      refine (Finset.sum_congr rfl fun k _ => ?_).trans (masked_row (x1 (ix2 r (0 : Fin 1))) (hin r) (fun k => x0 (ix2 r k)))
      refine (select_apply _ _ _ _).trans ?_
      exact congrArg (fun b => Scalar.select b (x0 (ix2 r k)) (Ideal.ofBits .f32 0x00000000#32)) (mask_apply x1 r k)
  · -- the weights summed under the same mask: the label's weight
    refine (Cert.LibKeepdims.laneSum_keep_apply _ _ _ _ _ _ r (0 : Fin 1)).trans ?_
    refine (Finset.sum_congr rfl fun k _ => ?_).trans (masked_row (x1 (ix2 r (0 : Fin 1))) (hin r) (fun k => x2 (ix2 (0 : Fin 1) k)))
    refine (select_apply _ _ _ _).trans ?_
    have e1 : broadcastTo S8192x128 (shapeCast S1x128 (shapeCast S1x128 x2 shapeCasts_S1x128_S1x128) shapeCasts_S1x128_S1x128)
        broadcasts_S1x128_S8192x128 (ix2 r k) = x2 (ix2 (0 : Fin 1) k) := by
      rw [broadcastTo_1b_ab_apply, shapeCast_self, shapeCast_self]
    rw [mask_apply, e1]
    rfl

end Cert.KernelIdeal.Payload

end
-- ==== Proof.KernelBlocks.lean ====
/-
  The input blocks at a grid point, in terms of the argument arrays.

  The grid is 2 × 32 and point t = 32·p + k (core p, step k) fetches row block number t: rows 8192·t … 8192·t + 8191
  of the probabilities and of the labels (the labels reach the kernel as a one-column matrix, a reshape of the label
  vector), and the class weights as one row (a reshape of the weight vector), the same at every point. The output
  window's block at point t is block t / 32 (one block of 8 rows per core).
-/
import proofs.«408979_j42958262894786_2_alg».proof.Proof.Gen.KernelIdeal.Frame
import proofs.«408979_j42958262894786_2_alg».proof.Proof.LibKeepdims
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The three input blocks at point t, at their literal shapes. -/
abbrev xblk (c : Dev nD) (t : Fin cfg0.N) : Vec F S8192x128 .f32 := iblk m c 0 t
abbrev tblk (c : Dev nD) (t : Fin cfg0.N) : Vec F S8192x1 .i32 := iblk m c 1 t
abbrev wblk (c : Dev nD) (t : Fin cfg0.N) : Vec F S1x128 .f32 := iblk m c 2 t

/-- The block indices, decided over the 64 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val / 32 ∧ win0_3.index t (1 : Fin 2) = 0 :=
  (by decide +kernel : ∀ t : Fin grid0.N, _)

theorem lt_N (t : Fin cfg0.N) : t.val < 64 := lt_of_lt_of_eq t.isLt (show cfg0.N = 64 from N_0)

/-- Row r of block t is row 8192·t + r of the whole array. -/
abbrev row (t : Fin cfg0.N) (r : Fin 8192) : Fin 524288 :=
  ⟨8192 * t.val + r.val, by have := lt_N t; have := r.isLt; omega⟩

/-- The probabilities' block: entry (r, k) is the array's entry (8192·t + r, k). -/
theorem xblk_apply (c : Dev nD) (t : Fin cfg0.N) (r : Fin 8192) (k : Fin 128) :
    xblk m c t (ix2 r k) = m ((c : Thread nD τ).loc main_arg0) (ix2 (row t r) k) := by
  obtain ⟨e0, e1, -⟩ := idx_facts t
  show iblk m c 0 t (ix2 r k) = _
  unfold iblk
  rw [View.read_apply]
  show V m c main_arg0 _ = _
  rw [V_main_arg0]
  congr 1
  funext a
  apply Fin.ext
  match a with
  | ⟨0, _⟩ => show win0_0.index t (0 : Fin 2) * 8192 + 1 * r.val = 8192 * t.val + r.val; rw [e0]; omega
  | ⟨1, _⟩ => show win0_0.index t (1 : Fin 2) * 128 + 1 * k.val = k.val; rw [e1]; omega

/-- The labels as the region finds them: the label vector viewed as one column. -/
theorem V_labels (c : Dev nD) :
    (V m c main_v0 : S524288x1.Idx → BitVec 32) = shapeCast S524288x1 (m ((c : Thread nD τ).loc main_arg1)) shapeCasts_S524288_S524288x1 := by
  show StableHlo.after hostOps0 (fun b => m (c, b)) (Proc.devRef .tc main_v0) = _
  after_results
  rfl

/-- The weights as the region finds them: the weight vector viewed as one row. -/
theorem V_weights (c : Dev nD) :
    (V m c main_v1 : S1x128.Idx → Elt F .f32) = shapeCast S1x128 (m ((c : Thread nD τ).loc main_arg2)) shapeCasts_S128_S1x128 := by
  show StableHlo.after hostOps0 (fun b => m (c, b)) (Proc.devRef .tc main_v1) = _
  after_results
  rfl

/-- The labels' block: entry (r, 0) is label 8192·t + r. -/
theorem tblk_apply (c : Dev nD) (t : Fin cfg0.N) (r : Fin 8192) :
    tblk m c t (ix2 r (0 : Fin 1)) = m ((c : Thread nD τ).loc main_arg1) (ix1 (row t r)) := by
  obtain ⟨-, -, e0, e1, -⟩ := idx_facts t
  show iblk m c 1 t (ix2 r (0 : Fin 1)) = _
  unfold iblk
  rw [View.read_apply]
  show V m c main_v0 _ = _
  rw [V_labels]
  refine Eq.trans (congrArg _ ?_) (Cert.LibKeepdims.shapeCast_a_a1_apply _ shapeCasts_S524288_S524288x1 (row t r) (0 : Fin 1))
  funext a
  apply Fin.ext
  match a with
  | ⟨0, _⟩ => show win0_1.index t (0 : Fin 2) * 8192 + 1 * r.val = 8192 * t.val + r.val; rw [e0]; omega
  | ⟨1, _⟩ => show win0_1.index t (1 : Fin 2) * 1 + 1 * 0 = 0; rw [e1]

/-- The weights' block: entry (0, k) is weight k, at every point. -/
theorem wblk_apply (c : Dev nD) (t : Fin cfg0.N) (k : Fin 128) :
    wblk m c t (ix2 (0 : Fin 1) k) = m ((c : Thread nD τ).loc main_arg2) (ix1 k) := by
  obtain ⟨-, -, -, -, e0, e1, -⟩ := idx_facts t
  show iblk m c 2 t (ix2 (0 : Fin 1) k) = _
  unfold iblk
  rw [View.read_apply]
  show V m c main_v1 _ = _
  rw [V_weights]
  refine Eq.trans (congrArg _ ?_) (shapeCast_a_1a_apply _ shapeCasts_S128_S1x128 (0 : Fin 1) k)
  funext a
  apply Fin.ext
  match a with
  | ⟨0, _⟩ => show win0_2.index t (0 : Fin 2) * 1 + 1 * 0 = 0; rw [e0]
  | ⟨1, _⟩ => show win0_2.index t (1 : Fin 2) * 128 + 1 * k.val = k.val; rw [e1]; omega

end Cert.KernelIdeal.Blocks

end
-- ==== Proof.KernelValue.lean ====
/-
  The kernel's result, as a value. Over the 2 × 32 grid, point t = 32·p + k handles row block t (8192 rows). The body
  keeps a running total in a one-entry scratch: reset to zero at a core's first step (t ≡ 0 mod 32), the block's loss
  added at every step, and the total broadcast into the core's output block at its last step (t ≡ 31 mod 32). So

    scratch after point t  =  Σ_{s ≤ t mod 32} blockLoss (32·(t / 32) + s),      blockLoss u = Σ_{r < 8192} rowLoss (8192·u + r),

  by induction on the point; the output array (16 rows: 8 per core) ends at the core's whole total in every entry of the
  core's 8 rows; the host lines after the call add entries (0, 0) and (8, 0) and multiply by 2⁻¹⁹. The two cores' totals
  are the sums over the first and the last 32 row blocks, together the sum over all 524288 rows: the mean loss.
-/
import proofs.«408979_j42958262894786_2_alg».proof.Proof.KernelPieces
import proofs.«408979_j42958262894786_2_alg».proof.Proof.KernelPayload
import proofs.«408979_j42958262894786_2_alg».proof.Proof.KernelBlocks
import proofs.«408979_j42958262894786_2_alg».proof.Proof.LossSpec
import Idealize.ShloMosaic.Lib.Pipeline.Value
import Idealize.ShloMosaic.Lib.StableHlo.Run

noncomputable section

namespace Cert.KernelIdeal.LossValue

open Cert.KernelIdeal Cert.KernelIdeal.Gen Cert.KernelIdeal.Pieces Cert.KernelIdeal.Payload Cert.KernelIdeal.Blocks
open Idealize.ShloMosaic Idealize.ShloMosaic.TcCoe Idealize.SL.Sem Idealize.ShloMosaic.ValueIdx Cert.LossSpec
open Idealize.ShloMosaic.Pipeline (Dat)

variable (m : (ℓ : Loc nD τ sig) → Buf (Elt Ideal) ℓ) (ρ : Dev nD → PrngReg)

/-- The three argument arrays on core c. -/
abbrev X (c : Dev nD) : SX.Idx → EReal := m ((c : Thread nD τ).loc main_arg0)
abbrev TG (c : Dev nD) : ST.Idx → BitVec 32 := m ((c : Thread nD τ).loc main_arg1)
abbrev W (c : Dev nD) : SW.Idx → EReal := m ((c : Thread nD τ).loc main_arg2)

/-- Every label names a class. -/
def InRange : Prop := ∀ (c : Dev nD) (i : Fin 524288), (TG m c (ix1 i)).toNat < 128

/-- The loss of row block u: its 8192 rows' losses. -/
def blockLoss (c : Dev nD) (u : ℕ) : EReal := ∑ r ∈ Finset.range 8192, rowLoss (X m c) (TG m c) (W m c) (8192 * u + r)

/-- The running total after point n: the block losses since the core's first step. -/
def total (c : Dev nD) (n : ℕ) : EReal := ∑ s ∈ Finset.range (n % 32 + 1), blockLoss m c (32 * (n / 32) + s)

theorem total_reset (c : Dev nD) (n : ℕ) (h0 : n % 32 = 0) : total m c n = blockLoss m c n := by
  unfold total
  rw [h0]
  simp only [Nat.zero_add, Finset.sum_range_one, Nat.add_zero]
  congr 1
  omega

theorem total_step (c : Dev nD) (n : ℕ) (h0 : ¬(n + 1) % 32 = 0) : total m c (n + 1) = total m c n + blockLoss m c (n + 1) := by
  unfold total
  have e1 : (n + 1) % 32 = n % 32 + 1 := by omega
  have e2 : (n + 1) / 32 = n / 32 := by omega
  rw [e1, e2, Finset.sum_range_succ _ (n % 32 + 1)]
  congr 2
  omega

/-- One step of the body on point t's blocks: the block's loss is added to the previous total. -/
theorem step (hin : InRange m) (c : Dev nD) (t : Fin cfg0.N) (xs : Vec Ideal S1x1 .f32) (y : S1x1.Idx) :
    k0_pay3 (F := Ideal) (xblk m c t) (tblk m c t) (wblk m c t) xs y = xs (ix2 (0 : Fin 1) (0 : Fin 1)) + blockLoss m c t.val := by
  have hb : ∀ r : Fin 8192, (tblk m c t (ix2 r (0 : Fin 1))).toNat < 128 := fun r => by
    rw [tblk_apply]; exact hin c (row t r)
  obtain ⟨p, q, rfl⟩ : ∃ (p q : Fin 1), y = ix2 p q := ⟨y 0, y 1, eq_ix2 y⟩
  obtain rfl : p = 0 := Subsingleton.elim _ _
  obtain rfl : q = 0 := Subsingleton.elim _ _
  rw [pay3_apply _ _ _ _ hb]
  refine congrArg (fun s : EReal => xs (ix2 (0 : Fin 1) (0 : Fin 1)) + s) ?_
  unfold blockLoss
  rw [← Fin.sum_univ_eq_sum_range (fun r => rowLoss (X m c) (TG m c) (W m c) (8192 * t.val + r)) 8192]
  refine Finset.sum_congr rfl fun r _ => ?_
  have hk : (⟨(tblk m c t (ix2 r (0 : Fin 1))).toNat, hb r⟩ : Fin 128) = col (TG m c) (row t r) :=
    Fin.ext (by rw [col_val _ _ (hin c (row t r))]; exact congrArg BitVec.toNat (tblk_apply m c t r))
  rw [hk, xblk_apply, wblk_apply]
  exact (rowLoss_of_lt (X m c) (TG m c) (W m c) (8192 * t.val + r.val) (row t r).isLt).symm

/-- The scratch after point t, given what the point before left (when t is not a core's first step). -/
theorem scratch_at (hin : InRange m) (c : Dev nD) (t : Fin cfg0.N) (y : S1x1.Idx)
    (ih : ¬t.val % 32 = 0 → (outsAt0 m c (t.val - 1) (Nat.lt_of_le_of_lt (Nat.sub_le _ _) t.isLt)).2 (ix2 (0 : Fin 1) (0 : Fin 1)) = total m c (t.val - 1)) :
    (outsAt0 m c t.val t.isLt).2 y = total m c t.val := by
  by_cases h0 : t.val % 32 = 0
  · have h1 : ¬t.val % 32 = 31 := by omega
    rw [outsAt0_A m c t h0 h1]
    dsimp only
    refine (congrFun (scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) y).trans ?_
    refine (step m hin c t _ y).trans ?_
    rw [pay2_apply, zero_add, total_reset m c t.val h0]
  · have hpos : t.val = (t.val - 1) + 1 := by omega
    have hstep : total m c t.val = total m c (t.val - 1) + blockLoss m c t.val := by
      have := total_step m c (t.val - 1) (by rw [← hpos]; exact h0)
      rw [← hpos] at this
      exact this
    by_cases h1 : t.val % 32 = 31
    · rw [outsAt0_C m c t h0 h1]
      dsimp only
      refine (congrFun (scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) y).trans ?_
      refine (step m hin c t _ y).trans ?_
      rw [ih h0, hstep]
    · rw [outsAt0_B m c t h0 h1]
      dsimp only
      refine (congrFun (scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) y).trans ?_
      refine (step m hin c t _ y).trans ?_
      rw [ih h0, hstep]

/-- The scratch after every point is the running total: by induction on the point. -/
theorem scratch_eq (hin : InRange m) (c : Dev nD) : ∀ (n : ℕ) (h : n < cfg0.N) (y : S1x1.Idx), (outsAt0 m c n h).2 y = total m c n
  | 0, h, y => scratch_at m hin c ⟨0, h⟩ y (fun h0 => absurd (Nat.zero_mod 32) h0)
  | n + 1, h, y => scratch_at m hin c ⟨n + 1, h⟩ y (fun _ => scratch_eq hin c n (Nat.lt_of_succ_lt h) _)

/-- At a core's last step the output block holds the core's total at every position. -/
theorem out_at (hin : InRange m) (c : Dev nD) (t : Fin cfg0.N) (h31 : t.val % 32 = 31) (a : Fin 8) (b : Fin 128) :
    (outsAt0 m c t.val t.isLt).1 (ix2 a b) = total m c t.val := by
  have h0 : ¬t.val % 32 = 0 := by omega
  have hs := scratch_eq m hin c t.val t.isLt (ix2 (0 : Fin 1) (0 : Fin 1))
  rw [outsAt0_C m c t h0 h31] at hs ⊢
  dsimp only at hs ⊢
  rw [scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h31) (iblk m c 0 t) (iblk m c 1 t) (iblk m c 2 t) (outsAt0 m c (t.val - 1) (Nat.lt_of_le_of_lt (Nat.sub_le _ _) t.isLt)).2] at hs
  refine (congrFun (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h31) (iblk m c 0 t) (iblk m c 1 t) (iblk m c 2 t) (outsAt0 m c (t.val - 1) (Nat.lt_of_le_of_lt (Nat.sub_le _ _) t.isLt)).2) (ix2 a b)).trans ?_
  rw [pay1_apply]
  exact hs

/-! ## The output array -/

/-- The output array after the run: each core's 8 rows hold the core's whole total (the total after its last step). -/
def outArr (c : Dev nD) : Buf (Elt Ideal) ((c : Thread nD τ).loc main_v2) :=
  fun (i : S16x128.Idx) => total m c (32 * ((i 0).val / 8) + 31)

/-- The output block at a core's last step, at any position. -/
theorem out_at' (hin : InRange m) (c : Dev nD) (t : Fin cfg0.N) (h31 : t.val % 32 = 31) (y : S8x128.Idx) :
    (outsAt0 m c t.val t.isLt).1 y = total m c t.val := by
  obtain ⟨a, b, rfl⟩ : ∃ (a : Fin 8) (b : Fin 128), y = ix2 a b := ⟨y 0, y 1, eq_ix2 y⟩
  exact out_at m hin c t h31 a b

/-- What a core's last step writes back is its block of the output array. -/
theorem flushed_eq (hin : InRange m) (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  obtain ⟨-, -, -, -, -, -, e0, e1⟩ := idx_facts t
  show (cfg0.win 3).cut (grid0.coords t) ((dats m 0 c).after 3 t) = _
  rw [after0_3]
  funext y
  rw [View.read_apply]
  refine (out_at' m hin c t h31 y).trans ?_
  unfold outArr
  refine congrArg (total m c) ?_
  show t.val = 32 * ((win0_3.index t (0 : Fin 2) * 8 + 1 * (y 0).val) / 8) + 31
  rw [e0]
  have hy : (y 0).val < 8 := (y 0).isLt
  omega

/-- An index of the output array is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2).slice (win0_3.rect t)).set ↔ _
  rw [View.set_slice_whole, Rect.mem_set_unit]
  exact Iff.rfl

/-- Every index of the output array is in the block some core's last step writes back. -/
theorem cover (c : Dev nD) (i : S16x128.Idx) :
    ∃ t : Fin cfg0.N, (cfg0.win 3).flush t = true ∧ i ∈ ((cfg0.win 3).blk t).view.set := by
  have hi0 : (i 0).val < 16 := (i 0).isLt
  have hi1 : (i 1).val < 128 := (i 1).isLt
  obtain ⟨t, ht⟩ : ∃ t : Fin cfg0.N, t.val = 32 * ((i 0).val / 8) + 31 :=
    ⟨⟨32 * ((i 0).val / 8) + 31, by rw [show cfg0.N = 64 from N_0]; omega⟩, rfl⟩
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- So the output array ends as stated. -/
theorem final (hin : InRange m) (c : Dev nD) : (dats m 0 c).arrAt 3 cfg0.N = outArr m c :=
  (dats m 0 c).arrAt_eq_of_cover 3 (outArr m c) (flushed_eq m hin c) (cover c)

/-! ## The two cores' totals together, and the host lines after the call -/

/-- The first 32 row blocks' losses plus the last 32 row blocks' losses are all 524288 rows' losses. -/
theorem totals_eq (c : Dev nD) :
    total m c 31 + total m c 63 = ∑ i ∈ Finset.range 524288, rowLoss (X m c) (TG m c) (W m c) i := by
  unfold total
  show ∑ s ∈ Finset.range 32, blockLoss m c (32 * 0 + s) + ∑ s ∈ Finset.range 32, blockLoss m c (32 * 1 + s) = _
  simp only [Nat.mul_zero, Nat.zero_add, Nat.mul_one]
  rw [← Finset.sum_range_add (fun s => blockLoss m c s) 32 32]
  unfold blockLoss
  exact (sum_range_blocks (fun i => rowLoss (X m c) (TG m c) (W m c) i) 8192 64).symm

/-- Entry (0, 0) of the output array is core 0's total, entry (8, 0) core 1's. -/
theorem outArr_core0 (c : Dev nD) : outArr m c (ix2 (0 : Fin 16) (0 : Fin 128)) = total m c 31 := by
  unfold outArr
  refine congrArg (total m c) ?_
  show 32 * (0 / 8) + 31 = 31
  decide

theorem outArr_core1 (c : Dev nD) : outArr m c (ix2 (8 : Fin 16) (0 : Fin 128)) = total m c 63 := by
  unfold outArr
  refine congrArg (total m c) ?_
  show 32 * (8 / 8) + 31 = 63
  decide

/-- The host lines after the call, as one function of the output array: its entries (0, 0) and (8, 0), each sliced out and
    viewed as a scalar, added, times the word 2⁻¹⁹. -/
def tailOf (A : S16x128.Idx → EReal) : S_.Idx → EReal :=
  mulf (F := Ideal) (φ := .f32)
    (addf (F := Ideal) (φ := .f32)
      (shapeCast S_ (extractStridedSlice S1x1 ![0, 0] A slices_S16x128_S1x1_0_0) shapeCasts_S1x1_S_)
      (shapeCast S_ (extractStridedSlice S1x1 ![8, 0] A slices_S16x128_S1x1_8_0) shapeCasts_S1x1_S_))
    (constant (F := Ideal) S_ .f32 0x36000000#32)

theorem tailOf_apply (A : S16x128.Idx → EReal) (j : S_.Idx) :
    tailOf A j = (A (ix2 (0 : Fin 16) (0 : Fin 128)) + A (ix2 (8 : Fin 16) (0 : Fin 128))) * ((1 / 524288 : ℝ) : EReal) := by
  have hrm : ∀ k : S1x1.Idx, (S1x1.rowMajor k).val = (S_.rowMajor j).val := fun k => by
    have h1 : (S1x1.rowMajor k).val < 1 := (S1x1.rowMajor k).isLt
    have h2 : (S_.rowMajor j).val < 1 := (S_.rowMajor j).isLt
    omega
  have e0 : shapeCast S_ (extractStridedSlice S1x1 ![0, 0] A slices_S16x128_S1x1_0_0) shapeCasts_S1x1_S_ j
      = A (ix2 (0 : Fin 16) (0 : Fin 128)) := by
    refine (shapeCast_apply _ shapeCasts_S1x1_S_ j (ix2 (0 : Fin 1) (0 : Fin 1)) (hrm _)).trans ?_
    refine extractStridedSlice_apply ![0, 0] A slices_S16x128_S1x1_0_0 (ix2 (0 : Fin 1) (0 : Fin 1))
      (ix2 (0 : Fin 16) (0 : Fin 128)) (fun a => ?_)
    match a with
    | ⟨0, _⟩ => rfl
    | ⟨1, _⟩ => rfl
  have e8 : shapeCast S_ (extractStridedSlice S1x1 ![8, 0] A slices_S16x128_S1x1_8_0) shapeCasts_S1x1_S_ j
      = A (ix2 (8 : Fin 16) (0 : Fin 128)) := by
    refine (shapeCast_apply _ shapeCasts_S1x1_S_ j (ix2 (0 : Fin 1) (0 : Fin 1)) (hrm _)).trans ?_
    refine extractStridedSlice_apply ![8, 0] A slices_S16x128_S1x1_8_0 (ix2 (0 : Fin 1) (0 : Fin 1))
      (ix2 (8 : Fin 16) (0 : Fin 128)) (fun a => ?_)
    match a with
    | ⟨0, _⟩ => rfl
    | ⟨1, _⟩ => rfl
  unfold tailOf
  rw [mulf_apply, addf_apply, e0, e8, constant_apply, ofBits_inv]

/-- The result buffer after the host lines is that function of the output array: the mean loss. -/
theorem tail_eq (hin : InRange m) (c : Dev nD) :
    Pipeline.afterTail₀ cfgs (dats m) 0 (V0 m) [hostOps1] c main_v8 = fun _ => meanLoss (X m c) (TG m c) (W m c) := by
  unfold Pipeline.afterTail₀
  show StableHlo.after hostOps1 _ (Proc.devRef .tc main_v8) = _
  after_results
  have hA : Pipeline.withArrays (cfgs 0).spec c (V0 m c) (fun w => (dats m 0 c).arrAt w (cfgs 0).N) (Proc.devRef .tc main_v2)
      = outArr m c := (Pipeline.withArrays_arr spec0 launch0.win.arr_inj c _ _ 3).trans (final m hin c)
  rw [hA]
  show tailOf (outArr m c) = _
  funext j
  rw [tailOf_apply, outArr_core0, outArr_core1, totals_eq]
  rfl

/-! ## The run -/

/-- Under in-range labels, every weakly fair execution of the program ends with the result at the mean loss of the
    argument arrays, and the arguments unchanged. -/
theorem run (hin : InRange m) : θ_run defs (onTc (τ := τ) (main (F := Ideal))) ⟨m, fun _ => 0, ρ⟩ fun r => ∀ c : Dev nD,
      r.2.mem ((c.tc : Thread nD τ).loc main_v8) = (fun _ => meanLoss (X m c) (TG m c) (W m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (tail_eq m hin c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.LossValue

end
-- ==== Proof.lean ====
/- The certificate of the weighted log-loss kernel against its jnp reference, over the extended reals.

   Both programs take probabilities x : f32[524288, 128], labels t : i32[524288] and class weights w : f32[128] and return
   the mean over the rows i of  -log (max (x i (t i)) clip) * w (t i),  clip the f32 word nearest 1e-10 (the same word in
   both). The reference clips, takes minus the logarithm and multiplies by the weights on the whole array, then picks
   column t i of row i (take_along_axis) and averages. The kernel walks the rows in 64 blocks of 8192 on a 2 × 32 grid;
   in a block it picks x i (t i) and w (t i) FIRST, as sums of the row under the mask "column = label", applies
   clip, logarithm and weight to the picked entries only, adds the block's loss into a running total kept per core, and
   writes each core's total out at the core's last step; the host lines after the call add the two cores' totals and
   multiply by 2⁻¹⁹ where the reference divides by 2¹⁹.

   The precondition asks, besides finite floats, that every label lies in [0, 128): outside it the reference's
   take_along_axis wraps negative labels and fills out-of-range rows with its NaN word, while the kernel's mask matches no
   column and contributes zero. Under it the two results are one extended real: a row summed under the mask is the
   entry at the label (the other summands are zero, and adding zero is harmless at infinities too); max commutes;
   0 - a = -a; sums of extended reals reassociate and commute freely; and x / 2¹⁹ = x * 2⁻¹⁹. Finiteness is never used.

   frame_Kernel, frame_KernelIdeal: the generated frames. frame_ReferenceIdeal: the reference's run with its result
   dropped. preserves: the idealization rewrote nothing. algebraic: the kernel's run read as a value (Proof/KernelValue.lean)
   and the reference's (Proof/RefLoss.lean) meet at the specification's mean loss (Proof/LossSpec.lean); the label range is
   read out of the precondition in Proof/PreRange.lean. -/
import proofs.«408979_j42958262894786_2_alg».proof.Defs
import proofs.«408979_j42958262894786_2_alg».proof.Proof.Gen.Kernel
import proofs.«408979_j42958262894786_2_alg».proof.Proof.Gen.Kernel.Skeleton
import proofs.«408979_j42958262894786_2_alg».proof.Proof.Gen.Kernel.Launch
import proofs.«408979_j42958262894786_2_alg».proof.Proof.Gen.Kernel.Points
import proofs.«408979_j42958262894786_2_alg».proof.Proof.Gen.Kernel.Frame
import proofs.«408979_j42958262894786_2_alg».proof.Proof.Gen.KernelIdeal
import proofs.«408979_j42958262894786_2_alg».proof.Proof.Gen.KernelIdeal.Skeleton
import proofs.«408979_j42958262894786_2_alg».proof.Proof.Gen.KernelIdeal.Launch
import proofs.«408979_j42958262894786_2_alg».proof.Proof.Gen.KernelIdeal.Points
import proofs.«408979_j42958262894786_2_alg».proof.Proof.Gen.KernelIdeal.Frame
import proofs.«408979_j42958262894786_2_alg».proof.Proof.Gen.ReferenceIdeal
import proofs.«408979_j42958262894786_2_alg».proof.Proof.Gen.Pre_finite_inputs
import proofs.«408979_j42958262894786_2_alg».proof.Proof.RefRun
import proofs.«408979_j42958262894786_2_alg».proof.Proof.RefRead
import proofs.«408979_j42958262894786_2_alg».proof.Proof.RefLoss
import proofs.«408979_j42958262894786_2_alg».proof.Proof.PreRange
import proofs.«408979_j42958262894786_2_alg».proof.Proof.KernelValue
import Idealize.ShloMosaic.Adequacy
import Idealize.ShloMosaic.Init

noncomputable section

namespace Cert.Proof

open Idealize.ShloMosaic Idealize.SL.Sem

/-- The word-level kernel runs and leaves its arguments alone: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, with every label in [0, 128) by the precondition, the kernel's result and
    the reference's are both the mean loss of the argument arrays. -/
theorem algebraic : Cert.algebraic_KernelIdeal_ReferenceIdeal := by
  intro m ρ m' ρ' hpre hagree
  have hin : Cert.KernelIdeal.LossValue.InRange m := fun c i => Cert.PreRange.target_lt _ _ _ (hpre c) i
  refine ⟨fun c => fun _ => Cert.LossSpec.meanLoss (Cert.KernelIdeal.LossValue.X m c) (Cert.KernelIdeal.LossValue.TG m c)
    (Cert.KernelIdeal.LossValue.W m c), Cert.KernelIdeal.LossValue.run m ρ hin, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v10_eq, (hagree c).1, (hagree c).2.1, (hagree c).2.2]
  exact Cert.RefLoss.result_eq _ _ _ (hin c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
